-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S256 .f32) (main_arg2 : IVec S4096x4096 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S256 : Shape := ⟨1, ![256]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 20
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4096x4096, .f32⟩
  | .hbm, ⟨14, _⟩ => ⟨S4096x4096, .bf16⟩
  | .hbm, ⟨15, _⟩ => ⟨S8192x4096, .f32⟩
  | .hbm, ⟨16, _⟩ => ⟨S8192x4096, .bf16⟩
  | .hbm, ⟨17, _⟩ => ⟨S1x4096, .f32⟩
  | .hbm, ⟨18, _⟩ => ⟨S8192x4096, .f32⟩
  | .hbm, ⟨19, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256 : Shape := ⟨1, ![256]⟩
abbrev S4096x4096 : Shape := ⟨2, ![4096, 4096]⟩
abbrev S4096 : Shape := ⟨1, ![4096]⟩
abbrev S_ : Shape := ⟨0, ![]⟩
abbrev S4096x4096x1 : Shape := ⟨3, ![4096, 4096, 1]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S4096x4096, .i32⟩
  | .hbm, ⟨3, _⟩ => ⟨S4096, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4x2048x4096, .f32⟩
  | .hbm, ⟨14, _⟩ => ⟨S1x1x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S4096x4096x1_S4096x4096_n_0_n_n_0_2_1_wf : GatherDims.WF S256 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point of the blocked matrix product leaves behind, case by case.

  The body keeps a [1024 × 1024] accumulator between grid points. At the first point of a run over the
  contracted axis it stores the zero block, reads it back and adds the product of the point's two input
  blocks; at every later point it adds the product to what the point before left; at the last point it
  also stores the accumulator plus the broadcast bias row into the output block. Each lemma below reads
  the stores of one case back as the payload terms of the printed body: the accumulator after the point,
  and in the last case the output block.
-/
import proofs.«117611_j51264729645536_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The origin of a rank-two block, as the constant-zero offset. -/
theorem hz : (![0, 0] : Fin 2 → Nat) = fun _ => 0 := funext fun a => by fin_cases a <;> rfl

/-- First point of a run over the contracted axis: the accumulator is reset to the zero block and the
    product of the two input blocks is added to the zero block read back. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle point: the product of the two input blocks is added to what the point before left. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x1024) hz]

/-- The last point of a run: the accumulator is updated as at a middle point. -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- The last point of a run: the output block is the updated accumulator plus the bias row, broadcast
    down the rows. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x1024) hz, View.ld_unit_zero (S := S1x1024) hz, View.readCov_unit_zero (S := S1024x1024) _ hz]

end Cert.KernelIdeal.Acc

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Payload.lean ====
/-
  The three payloads of the body, read at one entry over the extended reals.

  The reset payload is the zero block. The update payload at (p, q) is the old accumulator entry plus
  the (p, q) entry of the product of the point's two input blocks, `∑ₖ a[p, k] · b[k, q]` over the 1024
  contracted positions of the block. The output payload at (p, q) is the accumulator entry plus entry q
  of the bias row.
-/
import proofs.«117611_j51264729645536_1_alg».proof.Proof.Gen.KernelIdeal.Skeleton
import proofs.«117611_j51264729645536_1_alg».proof.Proof.LibMatmulAt
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

/-- The product's dimension numbers read the left block's row at the result's row, -/
theorem lhs_blk_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- its column at the contracted position; -/
theorem lhs_blk_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right block's row at the contracted position, -/
theorem rhs_blk_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- and its column at the result's column. -/
theorem rhs_blk_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Every entry of the reset payload is zero. -/
theorem reset_at (p q : Fin 1024) : k0_pay1 (F := Ideal) (ix2 p q) = 0 := by
  unfold k0_pay1
  simp only [shapeCast_self]
  exact Ideal.ofBits_zero_f32

/-- Entry (p, q) of the update payload: the old entry plus the block product's entry. -/
theorem update_at (acc : Vec Ideal S1024x1024 .f32) (a b : Vec Ideal S1024x1024 .bf16) (p q : Fin 1024) :
    k0_pay2 (F := Ideal) acc a b (ix2 p q) = acc (ix2 p q) + ∑ k : Fin 1024, a (ix2 p k) * b (ix2 k q) := by
  unfold k0_pay2
  simp only [shapeCast_self]
  exact congrArg (acc (ix2 p q) + ·)
    (MatmulAt.matmul_zero_at (A := 1024) (K := 1024) (B := 1024) dot_S1024x1024_S1024x1024_S1024x1024_1_0_0_1_n_n rfl rfl
      lhs_blk_0 lhs_blk_1 rhs_blk_0 rhs_blk_1 none a b p q)

/-- Entry (p, q) of the output payload: the accumulator entry plus entry q of the bias row. -/
theorem output_at (acc : Vec Ideal S1024x1024 .f32) (brow : Vec Ideal S1x1024 .f32) (p q : Fin 1024) :
    k0_pay3 (F := Ideal) acc brow (ix2 p q) = acc (ix2 p q) + brow (ix2 0 q) := by
  unfold k0_pay3
  simp only [shapeCast_self]
  refine congrArg (acc (ix2 p q) + ·) ?_
  exact broadcastTo_apply brow broadcasts_S1x1024_S1024x1024 (ix2 p q) (ix2 0 q) (fun a => by
    match a with
    | ⟨0, _⟩ => rfl
    | ⟨1, _⟩ => rfl)

end Cert.KernelIdeal.Acc

end
-- ==== Proof.Arrays.lean ====
/-
  The three arrays the blocked product reads, as the call finds them, and their blocks entry by entry.

  Before the call the program flattens the input to `X` [8192 × 4096] (row `2048·b + s`), looks the weight
  matrix up in the table and transposes it to `Wt` [4096 (in) × 4096 (out)], and lays the bias out as one
  row [1 × 4096]; the two matrix operands are narrowed to bf16, which changes no value over the extended
  reals. The 128 grid points run over 8 row blocks, 4 column blocks and 4 blocks of the contracted axis, the
  last moving fastest: point `t` has row block `t / 16`, column block `t / 4 % 4` and contracted block
  `t % 4`. Entry (p, d) of the left block at point `t` is `X[1024·(t/16) + p, 1024·(t%4) + d]`, entry
  (d, q) of the right block is `Wt[1024·(t%4) + d, 1024·(t/4%4) + q]`, and entry (0, q) of the bias block
  is `bias[0, 1024·(t/4%4) + q]`.
-/
import proofs.«117611_j51264729645536_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx

variable {F : FTy → Type} [FloatOps F]
variable (m : (ℓ : Loc nD τ sig) → Buf (Elt F) ℓ)

/-- The flattened input, the transposed weight matrix and the bias row, as the call finds them. -/
abbrev xarr (c : Dev nD) : Vec F S8192x4096 .bf16 := V m c main_v10
abbrev warr (c : Dev nD) : Vec F S4096x4096 .bf16 := V m c main_v8
abbrev barr (c : Dev nD) : Vec F S1x4096 .f32 := V m c main_v11

/-- The blocks of the three operands at grid point `t`, at their literal block shapes. -/
abbrev xblk (c : Dev nD) (t : Fin cfg0.N) : Vec F S1024x1024 .bf16 := iblk m c 0 t
abbrev wblk (c : Dev nD) (t : Fin cfg0.N) : Vec F S1024x1024 .bf16 := iblk m c 1 t
abbrev bblk (c : Dev nD) (t : Fin cfg0.N) : Vec F S1x1024 .f32 := iblk m c 2 t

/-- The weight matrix [out × in]: each entry is the table's value at the entry's index, a negative index
    counted from the table's end. -/
def weights (lut : (⟨S256, .f32⟩ : BufTy).Contents (Elt F)) (idx : (⟨S4096x4096, .i32⟩ : BufTy).Contents (Elt F)) :
    (⟨S4096x4096, .f32⟩ : BufTy).Contents (Elt F) :=
  Host.gather gather_S256_S4096x4096x1_S4096x4096_n_0_n_n_0_2_1 lut
    (broadcastInDim S4096x4096x1 ![0, 1] bcast_S4096x4096_S4096x4096x1_0_1
      (select (cmpi .slt idx (broadcastInDim S4096x4096 ![] bcast_S_S4096x4096 (constantI S_ 32 0#32)))
        (addi idx (broadcastInDim S4096x4096 ![] bcast_S_S4096x4096 (constantI S_ 32 256#32))) idx))

/-- The left operand is the input flattened to [8192 × 4096], narrowed. -/
theorem xarr_eq (c : Dev nD) :
    xarr m c = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v10) = _
  after_results <;> rfl

/-- The right operand is the looked-up weight matrix transposed, narrowed. -/
theorem warr_eq (c : Dev nD) :
    warr m c = truncf .bf16 (transpose S4096x4096 [1, 0]
      (weights (m ((c : Thread nD τ).loc main_arg1)) (m ((c : Thread nD τ).loc main_arg2))) transposes_S4096x4096_S4096x4096_1_0) bitsLt_bf16_f32 := by
  show StableHlo.after hostOps0 (fun b => m (c, b)) (Proc.devRef .tc main_v8) = _
  after_results <;> rfl

/-- The bias operand is the bias laid out as one row. -/
theorem barr_eq (c : Dev nD) :
    barr m c = shapeCast S1x4096 (m ((c : Thread nD τ).loc main_arg3)) shapeCasts_S4096_S1x4096 := by
  show StableHlo.after hostOps0 (fun b => m (c, b)) (Proc.devRef .tc main_v11) = _
  after_results <;> rfl

/-- The block indices of the four windows at every grid point: row block `t / 16`, column block
    `t / 4 % 4`, contracted block `t % 4`. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4)

/-- A grid point is below 128. -/
theorem point_lt (t : Fin cfg0.N) : t.val < 128 := lt_of_lt_of_eq t.isLt (show cfg0.N = 128 from N_0)

/-- Entry (p, d) of the left block at point `t`. -/
theorem xblk_at (c : Dev nD) (t : Fin cfg0.N) (p d : Fin 1024)
    (hr : 1024 * (t.val / 16) + p.val < 8192) (hd : 1024 * (t.val % 4) + d.val < 4096) :
    xblk m c t (ix2 p d)
      = xarr m c (ix2 ⟨1024 * (t.val / 16) + p.val, hr⟩ ⟨1024 * (t.val % 4) + d.val, hd⟩) := by
  show iblk m c _ t _ = _
  unfold iblk
  rw [View.read_apply]
  show V m c main_v10 _ = V m c main_v10 _
  congr 1
  funext a
  apply Fin.ext
  match a with
  | ⟨0, _⟩ => show win0_0.index t 0 * 1024 + 1 * p.val = 1024 * (t.val / 16) + p.val; rw [(idx_facts t).1]; omega
  | ⟨1, _⟩ => show win0_0.index t 1 * 1024 + 1 * d.val = 1024 * (t.val % 4) + d.val; rw [(idx_facts t).2.1]; omega

/-- Entry (d, q) of the right block at point `t`. -/
theorem wblk_at (c : Dev nD) (t : Fin cfg0.N) (d q : Fin 1024)
    (hd : 1024 * (t.val % 4) + d.val < 4096) (ho : 1024 * (t.val / 4 % 4) + q.val < 4096) :
    wblk m c t (ix2 d q)
      = warr m c (ix2 ⟨1024 * (t.val % 4) + d.val, hd⟩ ⟨1024 * (t.val / 4 % 4) + q.val, ho⟩) := by
  show iblk m c _ t _ = _
  unfold iblk
  rw [View.read_apply]
  show V m c main_v8 _ = V m c main_v8 _
  congr 1
  funext a
  apply Fin.ext
  match a with
  | ⟨0, _⟩ => show win0_1.index t 0 * 1024 + 1 * d.val = 1024 * (t.val % 4) + d.val; rw [(idx_facts t).2.2.1]; omega
  | ⟨1, _⟩ => show win0_1.index t 1 * 1024 + 1 * q.val = 1024 * (t.val / 4 % 4) + q.val; rw [(idx_facts t).2.2.2.1]; omega

/-- Entry (0, q) of the bias block at point `t`. -/
theorem bblk_at (c : Dev nD) (t : Fin cfg0.N) (q : Fin 1024) (ho : 1024 * (t.val / 4 % 4) + q.val < 4096) :
    bblk m c t (ix2 0 q)
      = barr m c (ix2 0 ⟨1024 * (t.val / 4 % 4) + q.val, ho⟩) := by
  show iblk m c _ t _ = _
  unfold iblk
  rw [View.read_apply]
  show V m c main_v11 _ = V m c main_v11 _
  congr 1
  funext a
  apply Fin.ext
  match a with
  | ⟨0, _⟩ => show win0_2.index t 0 * 1 + 1 * 0 = 0; rw [(idx_facts t).2.2.2.2.1]
  | ⟨1, _⟩ => show win0_2.index t 1 * 1024 + 1 * q.val = 1024 * (t.val / 4 % 4) + q.val; rw [(idx_facts t).2.2.2.2.2.1]; omega

end Cert.KernelIdeal.Acc

end
-- ==== Proof.Spec.lean ====
/-
  The function both programs compute, and the one law that joins their two arrangements of it.

  A linear layer whose weight matrix is looked up in a small table: with `x` of shape [4, 2048, 4096],
  `w` of shape [4096 (out), 4096 (in)] and `bias` of shape [4096],

      y[b, s, o] = (∑ₖ x[b, s, k] · w[o, k]) + bias[o]      over the extended reals.

  The kernel computes the same number from the [8192 × 4096] row-major flattening `X` of `x` and the
  transpose `Wt` of `w`, taking the 4096 contracted positions in four consecutive runs of 1024 and adding
  each run's sum to a running total that starts at zero. Addition of extended reals is commutative and
  associative and zero is neutral, so the running total after all four runs is the whole sum: no
  finiteness of the entries is needed.

  The summand is made a total function of natural numbers (zero outside the arrays), so that the
  running totals can be stated over initial segments of ℕ without carrying bounds around.
-/
import Idealize.ShloMosaic.PureOps.Ideal
import Idealize.ShloMosaic.Lib.ValueIdx

noncomputable section

open Idealize.ShloMosaic

namespace Cert.TableLinear

open Idealize.ShloMosaic.ValueIdx

/-- The result both programs end with: `y[b, s, o] = (∑ₖ x[b, s, k] · w[o, k]) + bias[o]`. -/
def layer (x : (⟨3, ![4, 2048, 4096]⟩ : Shape).Idx → EReal) (w : (⟨2, ![4096, 4096]⟩ : Shape).Idx → EReal)
    (bias : (⟨1, ![4096]⟩ : Shape).Idx → EReal) : (⟨3, ![4, 2048, 4096]⟩ : Shape).Idx → EReal :=
  fun i => (∑ k : Fin 4096, x (ix3 (i 0) (i 1) k) * w (ix2 (i 2) k)) + bias (ix1 (i 2))

variable (X : (⟨2, ![8192, 4096]⟩ : Shape).Idx → EReal) (Wt : (⟨2, ![4096, 4096]⟩ : Shape).Idx → EReal)

/-- The product `X[r, d] · Wt[d, o]`, extended by zero outside the arrays. -/
def prodAt (r o d : ℕ) : EReal :=
  if h : r < 8192 ∧ o < 4096 ∧ d < 4096 then X (ix2 ⟨r, h.1⟩ ⟨d, h.2.2⟩) * Wt (ix2 ⟨d, h.2.2⟩ ⟨o, h.2.1⟩) else 0

theorem prodAt_of_lt {r o d : ℕ} (hr : r < 8192) (ho : o < 4096) (hd : d < 4096) :
    prodAt X Wt r o d = X (ix2 ⟨r, hr⟩ ⟨d, hd⟩) * Wt (ix2 ⟨d, hd⟩ ⟨o, ho⟩) :=
  dif_pos ⟨hr, ho, hd⟩

/-- The running total over the first `n` contracted positions. -/
def partialSum (r o n : ℕ) : EReal := ∑ d ∈ Finset.range n, prodAt X Wt r o d

/-- Nothing summed yet: zero. -/
theorem partialSum_zero (r o : ℕ) : partialSum X Wt r o 0 = 0 := Finset.sum_range_zero _

/-- One more run of 1024 positions: the running total grows by that run's sum. -/
theorem partialSum_run (r o k : ℕ) :
    partialSum X Wt r o (1024 * (k + 1))
      = partialSum X Wt r o (1024 * k) + ∑ d : Fin 1024, prodAt X Wt r o (1024 * k + d.val) := by
  unfold partialSum
  rw [show 1024 * (k + 1) = 1024 * k + 1024 by ring, Finset.sum_range_add,
    Fin.sum_univ_eq_sum_range (fun d => prodAt X Wt r o (1024 * k + d)) 1024]

/-- After all four runs the running total is the whole sum over the contracted axis. -/
theorem partialSum_full {r o : ℕ} (hr : r < 8192) (ho : o < 4096) :
    partialSum X Wt r o 4096 = ∑ k : Fin 4096, X (ix2 ⟨r, hr⟩ k) * Wt (ix2 k ⟨o, ho⟩) := by
  unfold partialSum
  rw [← Fin.sum_univ_eq_sum_range (fun d => prodAt X Wt r o d) 4096]
  exact Finset.sum_congr rfl fun k _ => prodAt_of_lt X Wt hr ho k.isLt

end Cert.TableLinear

end
-- ==== Proof.Invariant.lean ====
/-
  The accumulator after every grid point, and the output block at the last point of each run.

  Point `t` works on row block `t / 16`, column block `t / 4 % 4` and contracted block `t % 4`. By
  induction on the point, entry (p, q) of the accumulator after point `t` is the running total of the
  products `X[r, d] · Wt[d, o]`, with `r = 1024·(t/16) + p` and `o = 1024·(t/4%4) + q`, over the first
  `1024·(t%4 + 1)` contracted positions: the first point of a run starts from the zero block, every later
  point adds its block's 1024 products to what the point before left, and the row and column blocks do
  not change inside a run. At the last point of a run (`t % 4 = 3`) the total covers all 4096 positions,
  and the output block holds it plus the bias entry of column `o`.
-/
import proofs.«117611_j51264729645536_1_alg».proof.Proof.Pieces
import proofs.«117611_j51264729645536_1_alg».proof.Proof.Payload
import proofs.«117611_j51264729645536_1_alg».proof.Proof.Arrays
import proofs.«117611_j51264729645536_1_alg».proof.Proof.Spec

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.TableLinear

variable (m : (ℓ : Loc nD τ sig) → Buf (Elt Ideal) ℓ)

/-- The 1024 products of one grid point's two blocks at (p, q) are the products `X[r, d] · Wt[d, o]` over
    the point's run of contracted positions. -/
theorem block_products (c : Dev nD) (t : Fin cfg0.N) (p q : Fin 1024) :
    ∑ d : Fin 1024, xblk m c t (ix2 p d) * wblk m c t (ix2 d q)
      = ∑ d : Fin 1024, prodAt (xarr m c) (warr m c) (1024 * (t.val / 16) + p.val) (1024 * (t.val / 4 % 4) + q.val) (1024 * (t.val % 4) + d.val) := by
  have hN := point_lt t
  refine Finset.sum_congr rfl fun d _ => ?_
  have hr : 1024 * (t.val / 16) + p.val < 8192 := by have := p.isLt; omega
  have ho : 1024 * (t.val / 4 % 4) + q.val < 4096 := by have := q.isLt; omega
  have hd : 1024 * (t.val % 4) + d.val < 4096 := by have := d.isLt; omega
  rw [xblk_at m c t p d hr hd, wblk_at m c t d q hd ho, prodAt_of_lt _ _ hr ho hd]

/-- First point of a run: the accumulator entry is zero plus the point's products. -/
theorem step_first (c : Dev nD) (t : Fin cfg0.N) (h0 : t.val % 4 = 0) (h1 : ¬t.val % 4 = 3) (p q : Fin 1024) :
    (outsAt0 m c t.val t.isLt).2 (ix2 p q)
      = 0 + ∑ d : Fin 1024, xblk m c t (ix2 p d) * wblk m c t (ix2 d q) := by
  rw [outsAt0_A m c t h0 h1]
  dsimp only
  refine (congrFun (scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 p q)).trans ?_
  refine (update_at (k0_pay1 (F := Ideal)) (iblk m c 0 t) (iblk m c 1 t) p q).trans ?_
  rw [reset_at]

/-- A later point that is not the last of its run: the entry the point before left plus the point's products. -/
theorem step_middle (c : Dev nD) (t : Fin cfg0.N) (h0 : ¬t.val % 4 = 0) (h1 : ¬t.val % 4 = 3) (p q : Fin 1024) :
    (outsAt0 m c t.val t.isLt).2 (ix2 p q)
      = (outsAt0 m c (t.val - 1) (Nat.lt_of_le_of_lt (Nat.sub_le _ _) t.isLt)).2 (ix2 p q)
        + ∑ d : Fin 1024, xblk m c t (ix2 p d) * wblk m c t (ix2 d q) := by
  rw [outsAt0_B m c t h0 h1]
  dsimp only
  refine (congrFun (scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 p q)).trans ?_
  exact update_at (outsAt0 m c (t.val - 1) (Nat.lt_of_le_of_lt (Nat.sub_le _ _) t.isLt)).2 (iblk m c 0 t) (iblk m c 1 t) p q

/-- The last point of a run: the accumulator is updated in the same way, -/
theorem step_last (c : Dev nD) (t : Fin cfg0.N) (h0 : ¬t.val % 4 = 0) (h1 : t.val % 4 = 3) (p q : Fin 1024) :
    (outsAt0 m c t.val t.isLt).2 (ix2 p q)
      = (outsAt0 m c (t.val - 1) (Nat.lt_of_le_of_lt (Nat.sub_le _ _) t.isLt)).2 (ix2 p q)
        + ∑ d : Fin 1024, xblk m c t (ix2 p d) * wblk m c t (ix2 d q) := by
  rw [outsAt0_C m c t h0 h1]
  dsimp only
  refine (congrFun (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  exact update_at (outsAt0 m c (t.val - 1) (Nat.lt_of_le_of_lt (Nat.sub_le _ _) t.isLt)).2 (iblk m c 0 t) (iblk m c 1 t) p q

/-- and the output block is the updated accumulator plus the bias row's entry. -/
theorem out_last (c : Dev nD) (t : Fin cfg0.N) (h0 : ¬t.val % 4 = 0) (h1 : t.val % 4 = 3) (p q : Fin 1024) :
    (outsAt0 m c t.val t.isLt).1 (ix2 p q)
      = (outsAt0 m c t.val t.isLt).2 (ix2 p q) + bblk m c t (ix2 0 q) := by
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).trans ?_
  refine (output_at _ (iblk m c 2 t) p q).trans ?_
  refine congrArg (· + bblk m c t (ix2 0 q)) ?_
  exact (congrFun (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 p q)).symm

/-- A run's first point: zero plus the point's 1024 products is the running total over the first run. -/
theorem acc_first (c : Dev nD) (t : Fin cfg0.N) (h0 : t.val % 4 = 0) (p q : Fin 1024) :
    0 + ∑ d : Fin 1024, xblk m c t (ix2 p d) * wblk m c t (ix2 d q)
      = partialSum (xarr m c) (warr m c) (1024 * (t.val / 16) + p.val) (1024 * (t.val / 4 % 4) + q.val) (1024 * (t.val % 4 + 1)) := by
  rw [block_products m c t p q, partialSum_run (xarr m c) (warr m c) _ _ (t.val % 4), h0, Nat.mul_zero, partialSum_zero]

/-- A later point: the running total over the runs before it plus the point's 1024 products is the running
    total over one run more. -/
theorem acc_next (c : Dev nD) (t : Fin cfg0.N) (p q : Fin 1024) (prev : EReal)
    (hprev : prev = partialSum (xarr m c) (warr m c) (1024 * (t.val / 16) + p.val) (1024 * (t.val / 4 % 4) + q.val) (1024 * (t.val % 4))) :
    prev + ∑ d : Fin 1024, xblk m c t (ix2 p d) * wblk m c t (ix2 d q)
      = partialSum (xarr m c) (warr m c) (1024 * (t.val / 16) + p.val) (1024 * (t.val / 4 % 4) + q.val) (1024 * (t.val % 4 + 1)) := by
  rw [block_products m c t p q, partialSum_run (xarr m c) (warr m c) _ _ (t.val % 4), hprev]

/-- THE INVARIANT: after point `n` the accumulator entry (p, q) is the running total over the first
    `1024·(n % 4 + 1)` contracted positions, for the point's row and column. -/
theorem acc_eq (c : Dev nD) : ∀ (n : ℕ) (h : n < cfg0.N) (p q : Fin 1024),
    (outsAt0 m c n h).2 (ix2 p q)
      = partialSum (xarr m c) (warr m c) (1024 * (n / 16) + p.val) (1024 * (n / 4 % 4) + q.val) (1024 * (n % 4 + 1))
  | 0, h, p, q => by
    rw [step_first m c ⟨0, h⟩ rfl (by show ¬(0 % 4 = 3); decide) p q]
    exact acc_first m c ⟨0, h⟩ rfl p q
  | n + 1, h, p, q => by
    have hN : n + 1 < 128 := lt_of_lt_of_eq h (show cfg0.N = 128 from N_0)
    by_cases h0 : (n + 1) % 4 = 0
    · have h1 : ¬(n + 1) % 4 = 3 := by omega
      rw [step_first m c ⟨n + 1, h⟩ h0 h1 p q]
      exact acc_first m c ⟨n + 1, h⟩ h0 p q
    · have ih := acc_eq c n (Nat.lt_of_succ_lt h) p q
      have e16 : (n + 1) / 16 = n / 16 := by omega
      have e4 : (n + 1) / 4 % 4 = n / 4 % 4 := by omega
      have ek : (n + 1) % 4 = n % 4 + 1 := by omega
      have hstep : (outsAt0 m c (n + 1) h).2 (ix2 p q)
          = (outsAt0 m c n (Nat.lt_of_succ_lt h)).2 (ix2 p q)
            + ∑ d : Fin 1024, xblk m c ⟨n + 1, h⟩ (ix2 p d) * wblk m c ⟨n + 1, h⟩ (ix2 d q) := by
        by_cases h1 : (n + 1) % 4 = 3
        · exact step_last m c ⟨n + 1, h⟩ h0 h1 p q
        · exact step_middle m c ⟨n + 1, h⟩ h0 h1 p q
      rw [hstep]
      refine acc_next m c ⟨n + 1, h⟩ p q _ ?_
      rw [ih]
      show partialSum _ _ (1024 * (n / 16) + p.val) (1024 * (n / 4 % 4) + q.val) (1024 * (n % 4 + 1))
        = partialSum _ _ (1024 * ((n + 1) / 16) + p.val) (1024 * ((n + 1) / 4 % 4) + q.val) (1024 * ((n + 1) % 4))
      rw [e16, e4, ek]

/-- At the last point of a run the output block's entry (p, q) is the whole sum over the contracted axis
    for the point's row and column, plus the bias entry of the column. -/
theorem out_eq (c : Dev nD) (t : Fin cfg0.N) (h1 : t.val % 4 = 3) (p q : Fin 1024)
    (ho : 1024 * (t.val / 4 % 4) + q.val < 4096) :
    (outsAt0 m c t.val t.isLt).1 (ix2 p q)
      = partialSum (xarr m c) (warr m c) (1024 * (t.val / 16) + p.val) (1024 * (t.val / 4 % 4) + q.val) 4096
        + barr m c (ix2 0 ⟨1024 * (t.val / 4 % 4) + q.val, ho⟩) := by
  have h0 : ¬t.val % 4 = 0 := by omega
  rw [out_last m c t h0 h1 p q, acc_eq m c t.val t.isLt p q, bblk_at m c t q ho, h1]

end Cert.KernelIdeal.Acc

end
-- ==== Proof.Result.lean ====
/-
  From the flushed output blocks to the result array.

  The output block is written back only at the last point of each run over the contracted axis
  (`t % 4 = 3`), to block (`t / 16`, `t / 4 % 4`) of the [8192 × 4096] result of the call. What that point
  writes is the corresponding block of one whole-array function, `flat`: entry (r, o) is the whole sum
  `∑_d X[r, d] · Wt[d, o]` plus `bias[0, o]`. Every entry (r, o) lies in the block written at point
  `16·(r / 1024) + 4·(o / 1024) + 3`, so these blocks cover the array and the call's result is `flat`. The
  program then reshapes it to [4, 2048, 4096].
-/
import proofs.«117611_j51264729645536_1_alg».proof.Proof.Invariant

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.TableLinear

variable (m : (ℓ : Loc nD τ sig) → Buf (Elt Ideal) ℓ) (ρ : Dev nD → PrngReg)

/-- The [8192 × 4096] array the call leaves: entry (r, o) is the whole sum over the contracted axis plus
    the bias entry of column `o`. -/
def flat (c : Dev nD) : Vec Ideal S8192x4096 .f32 := fun j =>
  partialSum (xarr m c) (warr m c) (j 0).val (j 1).val 4096 + barr m c (ix2 0 ⟨(j 1).val, (j 1).isLt⟩)

/-- What a writing point writes back is its block of `flat`. -/
theorem flushed_eq (c : Dev nD) (t : Fin cfg0.N) (hf : (cfg0.win 3).flush t = true) :
    (dats m 0 c).flushed 3 t = ((cfg0.win 3).blk t).view.read (Elt Ideal) (flat m c) := by
  have h3 : t.val % 4 = 3 := (flush0_3 t).mp hf
  have hN := point_lt t
  show (cfg0.win 3).cut (grid0.coords t) ((dats m 0 c).after 3 t) = _
  rw [after0_3]
  refine funext fun (j : S1024x1024.Idx) => ?_
  obtain ⟨p, q, rfl⟩ : ∃ (p q : Fin 1024), j = ix2 p q := ⟨j 0, j 1, eq_ix2 j⟩
  have ho : 1024 * (t.val / 4 % 4) + q.val < 4096 := by have := q.isLt; omega
  show (outsAt0 m c t.val t.isLt).1 (ix2 p q) = flat m c (((cfg0.win 3).blk t).view.emb (ix2 p q))
  rw [out_eq m c t h3 p q ho]
  have E0 : ((((cfg0.win 3).blk t).view.emb (ix2 p q)) 0).val = 1024 * (t.val / 16) + p.val := by
    show win0_3.index t 0 * 1024 + 1 * p.val = _
    rw [(idx_facts t).2.2.2.2.2.2.1]; omega
  have E1 : ((((cfg0.win 3).blk t).view.emb (ix2 p q)) 1).val = 1024 * (t.val / 4 % 4) + q.val := by
    show win0_3.index t 1 * 1024 + 1 * q.val = _
    rw [(idx_facts t).2.2.2.2.2.2.2]; omega
  unfold flat
  dsimp only
  rw [E0]
  congr 1
  · rw [E1]
  · congr 1
    funext a
    match a with
    | ⟨0, _⟩ => rfl
    | ⟨1, _⟩ => exact Fin.ext E1.symm

/-- An entry of the result is in point `t`'s block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v12).slice (win0_3.rect t)).set ↔ _
  rw [View.set_slice_whole, Rect.mem_set_unit]
  exact Iff.rfl

/-- Every entry of the result is in the block some writing point writes. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [show cfg0.N = 128 from N_0]; omega⟩, rfl⟩
  refine ⟨t, (flush0_3 t).mpr (by omega), ?_⟩
  rw [mem_blk]
  intro a
  match a with
  | ⟨0, _⟩ =>
    show win0_3.index t 0 * 1024 ≤ (i 0).val ∧ (i 0).val < win0_3.index t 0 * 1024 + 1024
    rw [(idx_facts t).2.2.2.2.2.2.1]; omega
  | ⟨1, _⟩ =>
    show win0_3.index t 1 * 1024 ≤ (i 1).val ∧ (i 1).val < win0_3.index t 1 * 1024 + 1024
    rw [(idx_facts t).2.2.2.2.2.2.2]; omega

/-- So the call's result array ends holding `flat`. -/
theorem final (c : Dev nD) : (dats m 0 c).arrAt 3 cfg0.N = flat m c :=
  (dats m 0 c).arrAt_eq_of_cover 3 (flat m c) (flushed_eq m c) (covered)

/-- The program's result: `flat` reshaped to [4, 2048, 4096]. -/
theorem tail_eq (c : Dev nD) :
    Pipeline.afterTail₀ cfgs (dats m) 0 (V0 m) [hostOps1] c main_v13
      = shapeCast S4x2048x4096 (flat m c) shapeCasts_S8192x4096_S4x2048x4096 := by
  unfold Pipeline.afterTail₀
  show StableHlo.after hostOps1 _ (Proc.devRef .tc main_v13) = _
  after_results
  exact congrArg (fun z => shapeCast S4x2048x4096 z shapeCasts_S8192x4096_S4x2048x4096) ((Pipeline.withArrays_arr spec0 launch0.win.arr_inj c _ _ 3).trans (final m c))

end Cert.KernelIdeal.Acc

end
-- ==== Proof.Bridge.lean ====
/-
  The kernel computes the layer.

  The three arrays the blocked product reads are re-laid arguments: `X[2048·b + s, k] = x[b, s, k]` (a
  reshape), `Wt[k, o] = w[o, k]` (a transpose of the looked-up weight matrix) and `bias[0, o] = bias[o]`
  (a reshape); the narrowing of the two matrix operands is the identity over the extended reals. So the
  call's result, reshaped to [4, 2048, 4096], has at (b, s, o) the entry
  `(∑ₖ x[b, s, k] · w[o, k]) + bias[o]`: the layer.
-/
import proofs.«117611_j51264729645536_1_alg».proof.Proof.Result

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.TableLinear

variable (m : (ℓ : Loc nD τ sig) → Buf (Elt Ideal) ℓ)

/-- `X[2048·b + s, k] = x[b, s, k]`. -/
theorem xarr_at (c : Dev nD) (b : Fin 4) (s : Fin 2048) (k : Fin 4096) (hr : 2048 * b.val + s.val < 8192) :
    xarr m c (ix2 ⟨2048 * b.val + s.val, hr⟩ k) = (m ((c : Thread nD τ).loc main_arg0)) (ix3 b s k) := by
  rw [xarr_eq]
  show shapeCast S8192x4096 (m ((c : Thread nD τ).loc main_arg0)) shapeCasts_S4x2048x4096_S8192x4096 (ix2 ⟨2048 * b.val + s.val, hr⟩ k) = _
  exact shapeCast_apply _ _ _ (ix3 b s k) (by
    rw [Shape.rowMajor_val_three, Shape.rowMajor_val_two]
    show (b.val * 2048 + s.val) * 4096 + k.val = (2048 * b.val + s.val) * 4096 + k.val
    omega)

/-- `Wt[k, o] = w[o, k]`. -/
theorem warr_at (c : Dev nD) (k o : Fin 4096) :
    warr m c (ix2 k o) = weights (m ((c : Thread nD τ).loc main_arg1)) (m ((c : Thread nD τ).loc main_arg2)) (ix2 o k) := by
  rw [warr_eq]
  show transpose S4096x4096 [1, 0] (weights (m ((c : Thread nD τ).loc main_arg1)) (m ((c : Thread nD τ).loc main_arg2))) transposes_S4096x4096_S4096x4096_1_0 (ix2 k o) = _
  exact transpose_apply _ _ _ (ix2 k o) (ix2 o k) (fun b => by
    match b with
    | ⟨0, _⟩ => rfl
    | ⟨1, _⟩ => rfl)

/-- `bias[0, o] = bias[o]`. -/
theorem barr_at (c : Dev nD) (o : Fin 4096) :
    barr m c (ix2 0 o) = (m ((c : Thread nD τ).loc main_arg3)) (ix1 o) := by
  rw [barr_eq]
  exact shapeCast_apply _ _ _ (ix1 o) (by
    rw [Shape.rowMajor_val_one, Shape.rowMajor_val_two]
    show o.val = 0 * 4096 + o.val
    omega)

/-- THE KERNEL'S RESULT: the call's result reshaped to [4, 2048, 4096] is the layer of the input, the
    looked-up weight matrix and the bias. -/
theorem result_eq (c : Dev nD) :
    shapeCast S4x2048x4096 (flat m c) shapeCasts_S8192x4096_S4x2048x4096
      = layer (m ((c : Thread nD τ).loc main_arg0)) (weights (m ((c : Thread nD τ).loc main_arg1)) (m ((c : Thread nD τ).loc main_arg2))) (m ((c : Thread nD τ).loc main_arg3)) := by
  funext i
  obtain ⟨b, s, o, rfl⟩ : ∃ (b : Fin 4) (s : Fin 2048) (o : Fin 4096), i = ix3 b s o := ⟨i 0, i 1, i 2, eq_ix3 i⟩
  have hr : 2048 * b.val + s.val < 8192 := by have := b.isLt; have := s.isLt; omega
  rw [shapeCast_apply (flat m c) shapeCasts_S8192x4096_S4x2048x4096 (ix3 b s o) (ix2 ⟨2048 * b.val + s.val, hr⟩ o) (by
    rw [Shape.rowMajor_val_two, Shape.rowMajor_val_three]
    show (2048 * b.val + s.val) * 4096 + o.val = (b.val * 2048 + s.val) * 4096 + o.val
    omega)]
  unfold flat layer
  dsimp only
  rw [partialSum_full (xarr m c) (warr m c) hr o.isLt]
  congr 1
  · exact Finset.sum_congr rfl fun k _ => by rw [xarr_at m c b s k hr, warr_at m c k o]
  · exact barr_at m c o

end Cert.KernelIdeal.Acc

end
-- ==== Proof.KernelRun.lean ====
/-
  The kernel's run, with its result named.

  Every weakly fair execution of the kernel's program ends with the result buffer holding the layer of
  the input, the looked-up weight matrix and the bias, and with the four arguments unchanged: the
  generated frame run leaves the call's result array at what the proof data compute, which is `flat`
  (the blocks written back cover it), the trailing reshape of it is the layer, and no line after the call
  writes an argument.
-/
import proofs.«117611_j51264729645536_1_alg».proof.Proof.Bridge

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.TableLinear

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v13)
        = layer (m ((c.tc : Thread nD τ).loc main_arg0)) (weights (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Acc

end
-- ==== Proof.Reference.lean ====
/-
  The reference computes the layer.

  The reference looks the weight matrix `w` [out × in] up in the table, contracts the input's last axis
  with the weight matrix's second axis, and adds the bias broadcast over the first two axes: entry
  (b, s, o) of its result is `(∑ₖ x[b, s, k] · w[o, k]) + bias[o]`. The looked-up matrix is kept as one
  term: the kernel's program builds the same term, so it is never read entry by entry.
-/
import proofs.«117611_j51264729645536_1_alg».proof.Proof.Gen.ReferenceIdeal.Read
import proofs.«117611_j51264729645536_1_alg».proof.Proof.Spec

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.ReferenceIdeal.Read Idealize.ShloMosaic.ValueIdx Cert.TableLinear

/-- The reference's result, as the last stage of its run, is the layer of the input, the looked-up
    weight matrix and the bias. -/
theorem result_eq (x0 : (⟨S4x2048x4096, .f32⟩ : BufTy).Contents (Elt Ideal)) (x1 : (⟨S256, .f32⟩ : BufTy).Contents (Elt Ideal))
    (x2 : (⟨S4096x4096, .i32⟩ : BufTy).Contents (Elt Ideal)) (x3 : (⟨S4096, .f32⟩ : BufTy).Contents (Elt Ideal)) :
    val_main_v10 (F := Ideal) x0 x1 x2 x3 = layer x0 (val_main_v6 (F := Ideal) x1 x2) x3 := by
  funext i
  have el : ∀ k : Fin 4096, lidx_main_v7 i k = ix3 (i 0) (i 1) k := fun k => funext fun a => Fin.ext (by
    match a with
    | ⟨0, _⟩ => rfl
    | ⟨1, _⟩ => rfl
    | ⟨2, _⟩ => rfl)
  have er : ∀ k : Fin 4096, ridx_main_v7 i k = ix2 (i 2) k := fun k => funext fun a => Fin.ext (by
    match a with
    | ⟨0, _⟩ => rfl
    | ⟨1, _⟩ => rfl)
  have eb : idx_main_v8 (idx_main_v9 i) = ix1 (i 2) := funext fun a => Fin.ext (by
    match a with
    | ⟨0, _⟩ => rfl)
  rw [val_main_v10_apply, val_main_v7_apply, val_main_v9_apply, val_main_v8_apply]
  simp only [el, er, eb, Ideal.addf_def]
  rfl

end Cert.ReferenceIdeal.RefValue

end
-- ==== Proof.lean ====
/-
  A linear layer whose weight matrix is looked up in a 256-entry table, as a blocked matrix product, against
  its one-line definition.

  Both programs look the weight matrix `w` [4096 (out) × 4096 (in)] up in the table with the same
  operations. The reference contracts the input `x` [4, 2048, 4096] with `w` and adds the bias:
  `y[b, s, o] = (∑ₖ x[b, s, k] · w[o, k]) + bias[o]`. The kernel flattens `x` to [8192 × 4096], transposes
  `w`, and runs a grid of 8 × 4 × 4 points, each multiplying a [1024 × 1024] block of the one by a
  [1024 × 1024] block of the other into an accumulator that is reset at the first of the four points
  along the contracted axis and written out, with the bias row added, at the last. Over the extended
  reals the narrowing of the operands is the identity, a product into a zero accumulator is a plain sum,
  and addition is commutative and associative with zero neutral, so the four partial sums taken in
  order are the whole sum over the 4096 contracted positions: the two results are equal entry by entry,
  whatever the entries (no finiteness is used).

  The modules: `Spec` (the layer, and running totals of its sum), `Pieces` and `Payload` (what one grid
  point stores, read at an entry), `Arrays` (the operands as the call finds them and their blocks),
  `Invariant` (the accumulator after every point), `Result` (the blocks written back cover the call's
  result), `Bridge` (that result is the layer of the arguments), `KernelRun` (the kernel's run with its
  result named) and `Reference` (the reference's result is the layer). The three frames are the
  generated ones; the idealization rewrote nothing.
-/
import proofs.«117611_j51264729645536_1_alg».proof.Defs
import proofs.«117611_j51264729645536_1_alg».proof.Proof.Gen.Kernel
import proofs.«117611_j51264729645536_1_alg».proof.Proof.Gen.Kernel.Skeleton
import proofs.«117611_j51264729645536_1_alg».proof.Proof.Gen.Kernel.Launch
import proofs.«117611_j51264729645536_1_alg».proof.Proof.Gen.Kernel.Points
import proofs.«117611_j51264729645536_1_alg».proof.Proof.Gen.Kernel.Frame
import proofs.«117611_j51264729645536_1_alg».proof.Proof.Gen.KernelIdeal
import proofs.«117611_j51264729645536_1_alg».proof.Proof.Gen.KernelIdeal.Skeleton
import proofs.«117611_j51264729645536_1_alg».proof.Proof.Gen.KernelIdeal.Launch
import proofs.«117611_j51264729645536_1_alg».proof.Proof.Gen.KernelIdeal.Points
import proofs.«117611_j51264729645536_1_alg».proof.Proof.Gen.KernelIdeal.Frame
import proofs.«117611_j51264729645536_1_alg».proof.Proof.Gen.ReferenceIdeal
import proofs.«117611_j51264729645536_1_alg».proof.Proof.Gen.Pre_finite_inputs
import proofs.«117611_j51264729645536_1_alg».proof.Proof.Gen.ReferenceIdeal.Run
import proofs.«117611_j51264729645536_1_alg».proof.Proof.Gen.ReferenceIdeal.Read
import proofs.«117611_j51264729645536_1_alg».proof.Proof.KernelRun
import proofs.«117611_j51264729645536_1_alg».proof.Proof.Reference
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments both programs end with the layer of those arguments: the
    kernel by its run, the reference by its run read stage by stage; the two looked-up weight matrices are
    the same term of the table and the indices. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
